-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S64x4096 : Shape := ⟨2, ![64, 4096]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x4096 .f32) (main_arg1 : FVec F S64x4096 .f32) (main_arg2 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x4096 : Shape := ⟨2, ![8192, 4096]⟩
abbrev S64x4096 : Shape := ⟨2, ![64, 4096]⟩
abbrev S64 : Shape := ⟨1, ![64]⟩
abbrev S1x64 : Shape := ⟨2, ![1, 64]⟩
abbrev S8192x64 : Shape := ⟨2, ![8192, 64]⟩
abbrev S512x4096 : Shape := ⟨2, ![512, 4096]⟩
abbrev S512x64 : Shape := ⟨2, ![512, 64]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S8192x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S1x64, .f32⟩
  | .local _ .vmem, ⟨4, _⟩ => ⟨S8192x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v7 : BitVec 32 := Scalar.muli arg0 c512_i32
  let v8 : Index := Scalar.indexCast v7
  let c0_5 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S64_S1x64 : S64.ShapeCasts S1x64
  inb_S512x4096_S512x4096_0_0 : ∀ a, (![0, 0] : Fin 2 → Nat) a + S512x4096.size a ≤ S512x4096.size a
  h_S512x4096 : 0 < S512x4096.numel
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  h_S512x64 : 0 < S512x64.numel
  dot_S512x4096_S64x4096_S512x64_1_1_0_0_n_n_wf : DotDims.WF S512x4096 S64x4096 S512x64 [1] [1] [0] [0] [] []
  hrank0 : 0 < grid0.rank
  k0_off1_inb : ∀ i : grid0.Coords, ∀ a, (k0_off1 i) a + S512x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S8192x64.size a
  hwx0_3 : ∀ i : grid0.Coords, EltTy.bits .f32 = 32 ∨ (Rect.block (s := S8192x64) S8192x64.size (cc0_transform_3 i) (hinb0_3 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S64x4096 : Shape := ⟨2, ![64, 4096]⟩
abbrev S64 : Shape := ⟨1, ![64]⟩
abbrev S4096x64 : Shape := ⟨2, ![4096, 64]⟩
abbrev S8192x64 : Shape := ⟨2, ![8192, 64]⟩
abbrev S1x64 : Shape := ⟨2, ![1, 64]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x4096_S4096x64_S8192x64_1_0_0_1_n_n_wf : DotDims.WF S8192x4096 S4096x64 S8192x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.RowsStore.lean ====
/-
  A buffer of rows with one band of whole rows overwritten.

  `RowsStored o p Y X` says that `X` is `Y` with the rows `[o, o + h)` replaced by the `h`-row array `p`
  (row `o + r` of `X` is row `r` of `p`; every row outside the band is `Y`'s). A single store through the
  rectangle of those rows and all columns leaves contents in this relation to what the buffer held before it.
-/
import Idealize.ShloMosaic.Lib.WritesUnit

namespace Cert.RowsStore

open Idealize.ShloMosaic

variable {sig : RefSig} {κ : Kind} {sp : Space} {e : EltTy} {Val : EltTy → Type} {d size : Fin 2 → ℕ}

/-- `X` agrees with `p` on the band of rows `[o, o + size 0)` (row `o + r` against row `r`, column against column)
    and with `Y` on every other row. -/
def RowsStored (o : ℕ) (p : (⟨2, size⟩ : Shape).Idx → Val e) (Y X : (⟨2, d⟩ : Shape).Idx → Val e) : Prop :=
  (∀ (y : (⟨2, d⟩ : Shape).Idx) (x : (⟨2, size⟩ : Shape).Idx),
      (y (0 : Fin 2)).val = o + (x (0 : Fin 2)).val → (y (1 : Fin 2)).val = (x (1 : Fin 2)).val → X y = p x)
  ∧ ∀ y : (⟨2, d⟩ : Shape).Idx, ((y (0 : Fin 2)).val < o ∨ o + size (0 : Fin 2) ≤ (y (0 : Fin 2)).val) → X y = Y y

/-- One store through the unit-stride rectangle at row `o`, column `0`: what the buffer then reads is what it read
    before with the band replaced by the payload. -/
theorem rowsStored_writes (v : View sig κ sp (⟨2, d⟩ : Shape) e) (f : v.ty.Contents Val) {off : Fin 2 → ℕ} {o : ℕ}
    (inb : ∀ a : Fin 2, off a + size a ≤ d a) (w : (Rect.unit (s := ⟨2, d⟩) off size inb).shape.Idx → Val e)
    (hoff : off = ![o, 0]) :
    RowsStored (size := size) o w (v.read Val f)
      (v.read Val (v.writes Val f [(⟨Rect.unit (s := ⟨2, d⟩) off size inb, w⟩ : View.Piece Val (⟨2, d⟩ : Shape) e)])) :=
  ⟨fun y x h0 h1 => View.read_writes_cons_rows_of_mem v f inb w [] y x hoff h0 h1,
   fun y h => (View.read_writes_cons_rows_of_not_mem v f inb w [] y hoff rfl h).trans (by rw [View.writes_nil])⟩

end Cert.RowsStore
-- ==== Proof.BitsBody.lean ====
/-
  The kernel body at one grid point, as a triple over its four staging buffers.

  The body loads its three input buffers whole, forms the 512 x 64 product-plus-bias payload of what it loaded, and
  stores it through the rectangle of the 512 rows at the row offset the point computes (`k0_off1 i`, row `o`
  once its closed form is given), all 64 columns. So the three inputs end as they were, and the output buffer ends
  in the relation `RowsStored o payload` to what it held: that band of rows replaced, every other row untouched.
  Stated for any float instance `F`.
-/
import proofs.«112931_g20796231647463_cont_8to1_1044_13_alg».proof.Proof.Gen.Kernel.Frame
import proofs.«112931_g20796231647463_cont_8to1_1044_13_alg».proof.Proof.Gen.Kernel.Skeleton
import proofs.«112931_g20796231647463_cont_8to1_1044_13_alg».proof.Proof.RowsStore
import Idealize.ShloMosaic.Lib.Pipeline.Value

set_option maxRecDepth 16384

noncomputable section

namespace Cert.Kernel.Body

open Cert.Kernel Cert.Kernel.Gen Cert.RowsStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `[0, 0]` are the zero offsets. -/
theorem zeros2 : (![0, 0] : Fin 2 → ℕ) = fun _ => 0 :=
  funext fun a => match a with
    | ⟨0, _⟩ => rfl
    | ⟨1, _⟩ => rfl

set_option maxHeartbeats 1000000 in
/-- The body's triple. From the three input buffers at `x0`, `x1`, `x2` and the output buffer at `d`, the body runs
    to the inputs as they were and the output at some `X` with `RowsStored o (payload of x0 x1 x2) d X`, where row
    `o` is the closed form of the offset the point computes. -/
theorem bodyRun (c : Dev nD) (i : grid0.Coords) (o : ℕ) (hoff : k0_off1 i = ![o, 0])
    (arg1 : Memref sig .tc .vmem S512x4096 .f32) (harg1 : arg1.IsWhole) (arg2 : Memref sig .tc .vmem S64x4096 .f32) (harg2 : arg2.IsWhole)
    (arg3 : Memref sig .tc .vmem S1x64 .f32) (harg3 : arg3.IsWhole) (arg4 : Memref sig .tc .vmem S8192x64 .f32) (harg4 : arg4.IsWhole)
    (x0 : Vec F S512x4096 .f32) (x1 : Vec F S64x4096 .f32) (x2 : Vec F S1x64 .f32) (d : Vec F S8192x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare d
            ∗ (iprop(owns (c : Thread nD τ) arg1 fullShare x0 ∗ owns (c : Thread nD τ) arg2 fullShare x1 ∗ owns (c : Thread nD τ) arg3 fullShare x2
                ∗ (∃ X : Vec F S8192x64 .f32, ⌜RowsStored (size := S512x64.size) o (k0_pay1 x0 x1 x2) d X⌝ ∗ owns (c : Thread nD τ) arg4 fullShare X)) -∗ K ⟨⟩))
          ⊢ wp frame (wpE (defs₀ (F := F)) Variants.none c none) E (cc0__router_body i arg1 harg1 arg2 harg2 arg3 harg3 arg4 harg4) K := by
    intro E K
    simp only [cc0__router_body_eq_skeleton]; unfold cc0__router_body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _
    isplitr; swap
    · iexists _; isplitr; swap; · iexact H3
      ipureintro; rfl
    ipureintro
    have e0 : View.readAt (Elt F) arg1.view (Rect.unit (s := S512x4096) ![0, 0] S512x4096.size inb_S512x4096_S512x4096_0_0).toLoadRect (harg1.unread x0) = x0 := by
      rw [View.readAt_eq_ld, harg1.read_unread, View.ld_unit_zero (S := S512x4096) zeros2]
    have e1 : View.readAt (Elt F) arg2.view (Rect.unit (s := S64x4096) ![0, 0] S64x4096.size inb_S64x4096_S64x4096_0_0).toLoadRect (harg2.unread x1) = x1 := by
      rw [View.readAt_eq_ld, harg2.read_unread, View.ld_unit_zero (S := S64x4096) zeros2]
    have e2 : View.readAt (Elt F) arg3.view (Rect.unit (s := S1x64) ![0, 0] S1x64.size inb_S1x64_S1x64_0_0).toLoadRect (harg3.unread x2) = x2 := by
      rw [View.readAt_eq_ld, harg3.read_unread, View.ld_unit_zero (S := S1x64) zeros2]
    rw [e0, e1, e2]
    have h := rowsStored_writes (Val := Elt F) arg4.view (harg4.unread d) (k0_off1_inb i) (k0_pay1 x0 x1 x2) hoff
    rw [harg4.read_unread] at h
    exact h

end Cert.Kernel.Body

end
-- ==== Proof.BitsFrame.lean ====
/-
  The frame of the program: every weakly fair execution terminates without a fault and leaves the three argument
  arrays as they were; and, for the value claim, what the output array may hold at the end.

  The output is one 8192 x 64 array kept in a single staging buffer for the whole grid and written back once, after
  the last of the 16 points. Point `t` overwrites rows `[512 t, 512 t + 512)` of that buffer with the payload of its
  own input blocks and touches no other row. What the buffer holds before the first point is not known, so the
  proof data cannot NAME the buffer's contents after a point; it CONSTRAINS them instead: after point `t` the buffer
  is in the relation `RowsStored (512 t) (payload at t)` to what the point found (`stepRel`). The three inputs are
  exact: each staging buffer holds its window's block at every point.
-/
import proofs.«112931_g20796231647463_cont_8to1_1044_13_alg».proof.Proof.BitsBody

set_option maxRecDepth 16384

noncomputable section

namespace Cert.Kernel.Frame

open Cert.Kernel Cert.Kernel.Gen Cert.Kernel.Body Cert.RowsStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the row offset the point computes -/

/-- Each window's current staging buffer at point `t`, as the pipeline passes it to the body, and its wholeness. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x64 .f32 := win0_3.stage (cfg0.slots t 3)
abbrev hs3 (t : Fin cfg0.N) : (ms3 t).IsWhole := hstage0_3 ((cfg0.slots t 3).cast nbuf0_3)

/-- At point `t` the body stores at row `512 t`, column `0`: the 32-bit product `t * 512` does not wrap on a grid of
    16 points. -/
theorem off_eq : ∀ t : Fin cfg0.N, k0_off1 (grid0.coords t) = ![512 * t.val, 0] :=
  (by decide +kernel : ∀ t : Fin grid0.N, k0_off1 (grid0.coords t) = ![512 * t.val, 0])

/-! ## The proof data -/

/-- What point `t` stores: the body's payload of the point's three input blocks. -/
def pay (c : Dev nD) (t : Fin cfg0.N) : FVec F S512x64 .f32 := k0_pay1 (iblk m c 0 t) (iblk m c 1 t) (iblk m c 2 t)

/-- The exact part of the proof data: the arrays as the region finds them; after the body at point `t` each input's
    buffer at its block. (The output's entry here is never read: its relation is `stepRel`, below.) -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What point `t` does to the output's staging buffer: rows `[512 t, 512 t + 512)` become the point's payload, every
    other row stays as the point found it. -/
def stepRel (c : Dev nD) (t : Fin cfg0.N) (Y X : S8192x64.Idx → Elt F .f32) : Prop :=
  RowsStored (size := S512x64.size) (512 * t.val) (pay m c t) Y X

/-- The one window whose contents are constrained, not named: the output. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => some (stepRel m c)

/-- The proof data: exact for the inputs, relational for the output. -/
def rdat (c : Dev nD) : RDat τ (Elt F) Unit ℕ (UR sig nD τ) ℕ cfg0 c := (dats m 0 c).toR.override (ovr m c)

theorem rdat_A (c : Dev nD) (w : Fin cfg0.W) : (rdat m c).A w = V m c (Pipeline.arrRef spec0 w) := A_eq m c w

/-- The output's relation is `stepRel`. -/
theorem rdat_after3 (c : Dev nD) : (rdat m c).after 3 = stepRel m c :=
  RDat.override_after_of_eq_some (rd := (dats m 0 c).toR) (ovr := ovr m c) (w := 3) rfl

/-- What the body may find in an input's buffer is the input's block. -/
theorem finds0 (c : Dev nD) (t : Fin cfg0.N) (Y) (h : (rdat m c).Finds 0 t Y) : Y = iblk m c 0 t := by
  obtain ⟨d, rfl⟩ := (dats m 0 c).toR_finds 0 t Y (((dats m 0 c).toR.override_finds (ovr := ovr m c) (w := 0) rfl t Y).mp h)
  exact before0 m c t d
theorem finds1 (c : Dev nD) (t : Fin cfg0.N) (Y) (h : (rdat m c).Finds 1 t Y) : Y = iblk m c 1 t := by
  obtain ⟨d, rfl⟩ := (dats m 0 c).toR_finds 1 t Y (((dats m 0 c).toR.override_finds (ovr := ovr m c) (w := 1) rfl t Y).mp h)
  exact before1 m c t d
theorem finds2 (c : Dev nD) (t : Fin cfg0.N) (Y) (h : (rdat m c).Finds 2 t Y) : Y = iblk m c 2 t := by
  obtain ⟨d, rfl⟩ := (dats m 0 c).toR_finds 2 t Y (((dats m 0 c).toR.override_finds (ovr := ovr m c) (w := 2) rfl t Y).mp h)
  exact before2 m c t d

/-- An input's buffer left at its block is left as its relation asks. -/
theorem leaves0 (c : Dev nD) (t : Fin cfg0.N) (Y) : (rdat m c).after 0 t Y (iblk m c 0 t) := by
  unfold rdat
  rw [RDat.override_after_of_eq_none (rd := (dats m 0 c).toR) (ovr := ovr m c) (w := 0) rfl]
  show (dats m 0 c).Leaves 0 t _
  rw [Dat.Leaves.live_iff _ (.inl rfl)]
  exact (after0 m c t).symm
theorem leaves1 (c : Dev nD) (t : Fin cfg0.N) (Y) : (rdat m c).after 1 t Y (iblk m c 1 t) := by
  unfold rdat
  rw [RDat.override_after_of_eq_none (rd := (dats m 0 c).toR) (ovr := ovr m c) (w := 1) rfl]
  show (dats m 0 c).Leaves 1 t _
  rw [Dat.Leaves.live_iff _ (.inl rfl)]
  exact (after1 m c t).symm
theorem leaves2 (c : Dev nD) (t : Fin cfg0.N) (Y) : (rdat m c).after 2 t Y (iblk m c 2 t) := by
  unfold rdat
  rw [RDat.override_after_of_eq_none (rd := (dats m 0 c).toR) (ovr := ovr m c) (w := 2) rfl]
  show (dats m 0 c).Leaves 2 t _
  rw [Dat.Leaves.live_iff _ (.inl rfl)]
  exact (after2 m c t).symm

/-! ## The body obligation -/

/-- The body at any point, handed whatever its buffers may then hold: the inputs hold their blocks, so the body's
    triple applies; the class invariant and the core's tallies pass through unread. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (ms0 t) fullShare X)
            ∗ (∃ X, ⌜(rdat m c).after 1 t (Y 1) X⌝ ∗ owns (c : Thread nD τ) (ms1 t) fullShare X)
            ∗ (∃ X, ⌜(rdat m c).after 2 t (Y 2) X⌝ ∗ owns (c : Thread nD τ) (ms2 t) fullShare X)
            ∗ (∃ X, ⌜(rdat m c).after 3 t (Y 3) X⌝ ∗ owns (c : Thread nD τ) (ms3 t) fullShare X))) := by
  have e0 := finds0 m c t (Y 0) (hY 0)
  have e1 := finds1 m c t (Y 1) (hY 1)
  have e2 := finds2 m c t (Y 2) (hY 2)
  rw [show (rdat m c).Φ t.succ = (rdat m c).Φ t.castSucc from rfl,
    show (rdat m c).owesAt () t.succ = (rdat m c).owesAt () t.castSucc from rfl, e0, e1, e2]
  unfold bodyAt0
  iintro ⟨HΦ, Ho, H0, H1, H2, H3⟩
  iapply ((bodyRun c (grid0.coords t) (512 * t.val) (off_eq t) _ _ _ _ _ _ _ _ (iblk m c 0 t) (iblk m c 1 t) (iblk m c 2 t) (Y 3)) Set.univ _)
  isplitl [H0]; · iexact H0
  isplitl [H1]; · iexact H1
  isplitl [H2]; · iexact H2
  isplitl [H3]; · iexact H3
  iintro ⟨H0, H1, H2, ⟨%X, %hX, H3⟩⟩
  isplitl [HΦ]; · iexact HΦ
  isplitl [Ho]; · iexact Ho
  isplitl [H0]
  · iexists _; isplitr; · ipureintro; exact leaves0 m c t _
    iexact H0
  isplitl [H1]
  · iexists _; isplitr; · ipureintro; exact leaves1 m c t _
    iexact H1
  isplitl [H2]
  · iexists _; isplitr; · ipureintro; exact leaves2 m c t _
    iexact H2
  iexists X; isplitr
  · ipureintro; rw [rdat_after3]; exact hX
  iexact H3

/-- The library's relational body obligation, at every point. -/
theorem body_obligation (c : Dev nD) : (rdat (F := F) m c).BodyObligation (defs₀ (F := F)) Variants.none () Set.univ := fun t Y hY => by
  rw [bigSep_W0, bigSep_W0]
  exact sound_body m c t Y hY

/-! ## The run and the frame -/

set_option backward.isDefEq.respectTransparency.types false in
/-- From any memory with zero counters every weakly fair execution of the program terminates, each input array of the
    pipeline ends at its entry contents, the output array at some contents the relation allows after every
    write-back, and every other unscoped buffer at its region-entry contents. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hΦ := fun _ _ => rfl)

/-- The frame claim's post, at any `F`: the three argument arrays end unchanged. Windows 0 and 1 stage `main_arg0`
    and `main_arg1`; `main_arg2` is staged by no window (the region reads its reshaped copy) and no host operation
    before the region writes any of the three. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((rdat_A m c 0).trans (V_main_arg0 m c)),
      (Pipeline.RDat.FramePost.arr_in h c 1 rfl).trans ((rdat_A m c 1).trans (V_main_arg1 m c)),
      ((h c).2 main_arg2 (Pipeline.mem_restRefs_of main_arg2 (by decide) (by decide))).trans (V_main_arg2 m c)⟩) (run_main m ρ)

end Cert.Kernel.Frame

end
-- ==== Proof.IdealBody.lean ====
/-
  The kernel body at one grid point, as a triple over its four staging buffers.

  The body loads its three input buffers whole, forms the 512 x 64 product-plus-bias payload of what it loaded, and
  stores it through the rectangle of the 512 rows at the row offset the point computes (`k0_off1 i`, row `o`
  once its closed form is given), all 64 columns. So the three inputs end as they were, and the output buffer ends
  in the relation `RowsStored o payload` to what it held: that band of rows replaced, every other row untouched.
  Stated for any float instance `F`.
-/
import proofs.«112931_g20796231647463_cont_8to1_1044_13_alg».proof.Proof.Gen.KernelIdeal.Frame
import proofs.«112931_g20796231647463_cont_8to1_1044_13_alg».proof.Proof.Gen.KernelIdeal.Skeleton
import proofs.«112931_g20796231647463_cont_8to1_1044_13_alg».proof.Proof.RowsStore
import Idealize.ShloMosaic.Lib.Pipeline.Value

set_option maxRecDepth 16384

noncomputable section

namespace Cert.KernelIdeal.Body

open Cert.KernelIdeal Cert.KernelIdeal.Gen Cert.RowsStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets `[0, 0]` are the zero offsets. -/
theorem zeros2 : (![0, 0] : Fin 2 → ℕ) = fun _ => 0 :=
  funext fun a => match a with
    | ⟨0, _⟩ => rfl
    | ⟨1, _⟩ => rfl

set_option maxHeartbeats 1000000 in
/-- The body's triple. From the three input buffers at `x0`, `x1`, `x2` and the output buffer at `d`, the body runs
    to the inputs as they were and the output at some `X` with `RowsStored o (payload of x0 x1 x2) d X`, where row
    `o` is the closed form of the offset the point computes. -/
theorem bodyRun (c : Dev nD) (i : grid0.Coords) (o : ℕ) (hoff : k0_off1 i = ![o, 0])
    (arg1 : Memref sig .tc .vmem S512x4096 .f32) (harg1 : arg1.IsWhole) (arg2 : Memref sig .tc .vmem S64x4096 .f32) (harg2 : arg2.IsWhole)
    (arg3 : Memref sig .tc .vmem S1x64 .f32) (harg3 : arg3.IsWhole) (arg4 : Memref sig .tc .vmem S8192x64 .f32) (harg4 : arg4.IsWhole)
    (x0 : Vec F S512x4096 .f32) (x1 : Vec F S64x4096 .f32) (x2 : Vec F S1x64 .f32) (d : Vec F S8192x64 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare d
            ∗ (iprop(owns (c : Thread nD τ) arg1 fullShare x0 ∗ owns (c : Thread nD τ) arg2 fullShare x1 ∗ owns (c : Thread nD τ) arg3 fullShare x2
                ∗ (∃ X : Vec F S8192x64 .f32, ⌜RowsStored (size := S512x64.size) o (k0_pay1 x0 x1 x2) d X⌝ ∗ owns (c : Thread nD τ) arg4 fullShare X)) -∗ K ⟨⟩))
          ⊢ wp frame (wpE (defs₀ (F := F)) Variants.none c none) E (cc0__router_body i arg1 harg1 arg2 harg2 arg3 harg3 arg4 harg4) K := by
    intro E K
    simp only [cc0__router_body_eq_skeleton]; unfold cc0__router_body_skel
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _
    isplitr; swap
    · iexists _; isplitr; swap; · iexact H3
      ipureintro; rfl
    ipureintro
    have e0 : View.readAt (Elt F) arg1.view (Rect.unit (s := S512x4096) ![0, 0] S512x4096.size inb_S512x4096_S512x4096_0_0).toLoadRect (harg1.unread x0) = x0 := by
      rw [View.readAt_eq_ld, harg1.read_unread, View.ld_unit_zero (S := S512x4096) zeros2]
    have e1 : View.readAt (Elt F) arg2.view (Rect.unit (s := S64x4096) ![0, 0] S64x4096.size inb_S64x4096_S64x4096_0_0).toLoadRect (harg2.unread x1) = x1 := by
      rw [View.readAt_eq_ld, harg2.read_unread, View.ld_unit_zero (S := S64x4096) zeros2]
    have e2 : View.readAt (Elt F) arg3.view (Rect.unit (s := S1x64) ![0, 0] S1x64.size inb_S1x64_S1x64_0_0).toLoadRect (harg3.unread x2) = x2 := by
      rw [View.readAt_eq_ld, harg3.read_unread, View.ld_unit_zero (S := S1x64) zeros2]
    rw [e0, e1, e2]
    have h := rowsStored_writes (Val := Elt F) arg4.view (harg4.unread d) (k0_off1_inb i) (k0_pay1 x0 x1 x2) hoff
    rw [harg4.read_unread] at h
    exact h

end Cert.KernelIdeal.Body

end
-- ==== Proof.IdealFrame.lean ====
/-
  The frame of the program: every weakly fair execution terminates without a fault and leaves the three argument
  arrays as they were; and, for the value claim, what the output array may hold at the end.

  The output is one 8192 x 64 array kept in a single staging buffer for the whole grid and written back once, after
  the last of the 16 points. Point `t` overwrites rows `[512 t, 512 t + 512)` of that buffer with the payload of its
  own input blocks and touches no other row. What the buffer holds before the first point is not known, so the
  proof data cannot NAME the buffer's contents after a point; it CONSTRAINS them instead: after point `t` the buffer
  is in the relation `RowsStored (512 t) (payload at t)` to what the point found (`stepRel`). The three inputs are
  exact: each staging buffer holds its window's block at every point.
-/
import proofs.«112931_g20796231647463_cont_8to1_1044_13_alg».proof.Proof.IdealBody

set_option maxRecDepth 16384

noncomputable section

namespace Cert.KernelIdeal.Frame

open Cert.KernelIdeal Cert.KernelIdeal.Gen Cert.KernelIdeal.Body Cert.RowsStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the row offset the point computes -/

/-- Each window's current staging buffer at point `t`, as the pipeline passes it to the body, and its wholeness. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x64 .f32 := win0_3.stage (cfg0.slots t 3)
abbrev hs3 (t : Fin cfg0.N) : (ms3 t).IsWhole := hstage0_3 ((cfg0.slots t 3).cast nbuf0_3)

/-- At point `t` the body stores at row `512 t`, column `0`: the 32-bit product `t * 512` does not wrap on a grid of
    16 points. -/
theorem off_eq : ∀ t : Fin cfg0.N, k0_off1 (grid0.coords t) = ![512 * t.val, 0] :=
  (by decide +kernel : ∀ t : Fin grid0.N, k0_off1 (grid0.coords t) = ![512 * t.val, 0])

/-! ## The proof data -/

/-- What point `t` stores: the body's payload of the point's three input blocks. -/
def pay (c : Dev nD) (t : Fin cfg0.N) : FVec F S512x64 .f32 := k0_pay1 (iblk m c 0 t) (iblk m c 1 t) (iblk m c 2 t)

/-- The exact part of the proof data: the arrays as the region finds them; after the body at point `t` each input's
    buffer at its block. (The output's entry here is never read: its relation is `stepRel`, below.) -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What point `t` does to the output's staging buffer: rows `[512 t, 512 t + 512)` become the point's payload, every
    other row stays as the point found it. -/
def stepRel (c : Dev nD) (t : Fin cfg0.N) (Y X : S8192x64.Idx → Elt F .f32) : Prop :=
  RowsStored (size := S512x64.size) (512 * t.val) (pay m c t) Y X

/-- The one window whose contents are constrained, not named: the output. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => some (stepRel m c)

/-- The proof data: exact for the inputs, relational for the output. -/
def rdat (c : Dev nD) : RDat τ (Elt F) Unit ℕ (UR sig nD τ) ℕ cfg0 c := (dats m 0 c).toR.override (ovr m c)

theorem rdat_A (c : Dev nD) (w : Fin cfg0.W) : (rdat m c).A w = V m c (Pipeline.arrRef spec0 w) := A_eq m c w

/-- The output's relation is `stepRel`. -/
theorem rdat_after3 (c : Dev nD) : (rdat m c).after 3 = stepRel m c :=
  RDat.override_after_of_eq_some (rd := (dats m 0 c).toR) (ovr := ovr m c) (w := 3) rfl

/-- What the body may find in an input's buffer is the input's block. -/
theorem finds0 (c : Dev nD) (t : Fin cfg0.N) (Y) (h : (rdat m c).Finds 0 t Y) : Y = iblk m c 0 t := by
  obtain ⟨d, rfl⟩ := (dats m 0 c).toR_finds 0 t Y (((dats m 0 c).toR.override_finds (ovr := ovr m c) (w := 0) rfl t Y).mp h)
  exact before0 m c t d
theorem finds1 (c : Dev nD) (t : Fin cfg0.N) (Y) (h : (rdat m c).Finds 1 t Y) : Y = iblk m c 1 t := by
  obtain ⟨d, rfl⟩ := (dats m 0 c).toR_finds 1 t Y (((dats m 0 c).toR.override_finds (ovr := ovr m c) (w := 1) rfl t Y).mp h)
  exact before1 m c t d
theorem finds2 (c : Dev nD) (t : Fin cfg0.N) (Y) (h : (rdat m c).Finds 2 t Y) : Y = iblk m c 2 t := by
  obtain ⟨d, rfl⟩ := (dats m 0 c).toR_finds 2 t Y (((dats m 0 c).toR.override_finds (ovr := ovr m c) (w := 2) rfl t Y).mp h)
  exact before2 m c t d

/-- An input's buffer left at its block is left as its relation asks. -/
theorem leaves0 (c : Dev nD) (t : Fin cfg0.N) (Y) : (rdat m c).after 0 t Y (iblk m c 0 t) := by
  unfold rdat
  rw [RDat.override_after_of_eq_none (rd := (dats m 0 c).toR) (ovr := ovr m c) (w := 0) rfl]
  show (dats m 0 c).Leaves 0 t _
  rw [Dat.Leaves.live_iff _ (.inl rfl)]
  exact (after0 m c t).symm
theorem leaves1 (c : Dev nD) (t : Fin cfg0.N) (Y) : (rdat m c).after 1 t Y (iblk m c 1 t) := by
  unfold rdat
  rw [RDat.override_after_of_eq_none (rd := (dats m 0 c).toR) (ovr := ovr m c) (w := 1) rfl]
  show (dats m 0 c).Leaves 1 t _
  rw [Dat.Leaves.live_iff _ (.inl rfl)]
  exact (after1 m c t).symm
theorem leaves2 (c : Dev nD) (t : Fin cfg0.N) (Y) : (rdat m c).after 2 t Y (iblk m c 2 t) := by
  unfold rdat
  rw [RDat.override_after_of_eq_none (rd := (dats m 0 c).toR) (ovr := ovr m c) (w := 2) rfl]
  show (dats m 0 c).Leaves 2 t _
  rw [Dat.Leaves.live_iff _ (.inl rfl)]
  exact (after2 m c t).symm

/-! ## The body obligation -/

/-- The body at any point, handed whatever its buffers may then hold: the inputs hold their blocks, so the body's
    triple applies; the class invariant and the core's tallies pass through unread. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (ms0 t) fullShare (Y 0) ∗ owns (c : Thread nD τ) (ms1 t) fullShare (Y 1)
        ∗ owns (c : Thread nD τ) (ms2 t) fullShare (Y 2) ∗ owns (c : Thread nD τ) (ms3 t) fullShare (Y 3))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (ms0 t) fullShare X)
            ∗ (∃ X, ⌜(rdat m c).after 1 t (Y 1) X⌝ ∗ owns (c : Thread nD τ) (ms1 t) fullShare X)
            ∗ (∃ X, ⌜(rdat m c).after 2 t (Y 2) X⌝ ∗ owns (c : Thread nD τ) (ms2 t) fullShare X)
            ∗ (∃ X, ⌜(rdat m c).after 3 t (Y 3) X⌝ ∗ owns (c : Thread nD τ) (ms3 t) fullShare X))) := by
  have e0 := finds0 m c t (Y 0) (hY 0)
  have e1 := finds1 m c t (Y 1) (hY 1)
  have e2 := finds2 m c t (Y 2) (hY 2)
  rw [show (rdat m c).Φ t.succ = (rdat m c).Φ t.castSucc from rfl,
    show (rdat m c).owesAt () t.succ = (rdat m c).owesAt () t.castSucc from rfl, e0, e1, e2]
  unfold bodyAt0
  iintro ⟨HΦ, Ho, H0, H1, H2, H3⟩
  iapply ((bodyRun c (grid0.coords t) (512 * t.val) (off_eq t) _ _ _ _ _ _ _ _ (iblk m c 0 t) (iblk m c 1 t) (iblk m c 2 t) (Y 3)) Set.univ _)
  isplitl [H0]; · iexact H0
  isplitl [H1]; · iexact H1
  isplitl [H2]; · iexact H2
  isplitl [H3]; · iexact H3
  iintro ⟨H0, H1, H2, ⟨%X, %hX, H3⟩⟩
  isplitl [HΦ]; · iexact HΦ
  isplitl [Ho]; · iexact Ho
  isplitl [H0]
  · iexists _; isplitr; · ipureintro; exact leaves0 m c t _
    iexact H0
  isplitl [H1]
  · iexists _; isplitr; · ipureintro; exact leaves1 m c t _
    iexact H1
  isplitl [H2]
  · iexists _; isplitr; · ipureintro; exact leaves2 m c t _
    iexact H2
  iexists X; isplitr
  · ipureintro; rw [rdat_after3]; exact hX
  iexact H3

/-- The library's relational body obligation, at every point. -/
theorem body_obligation (c : Dev nD) : (rdat (F := F) m c).BodyObligation (defs₀ (F := F)) Variants.none () Set.univ := fun t Y hY => by
  rw [bigSep_W0, bigSep_W0]
  exact sound_body m c t Y hY

/-! ## The run and the frame -/

set_option backward.isDefEq.respectTransparency.types false in
/-- From any memory with zero counters every weakly fair execution of the program terminates, each input array of the
    pipeline ends at its entry contents, the output array at some contents the relation allows after every
    write-back, and every other unscoped buffer at its region-entry contents. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hΦ := fun _ _ => rfl)

/-- The frame claim's post, at any `F`: the three argument arrays end unchanged. Windows 0 and 1 stage `main_arg0`
    and `main_arg1`; `main_arg2` is staged by no window (the region reads its reshaped copy) and no host operation
    before the region writes any of the three. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((rdat_A m c 0).trans (V_main_arg0 m c)),
      (Pipeline.RDat.FramePost.arr_in h c 1 rfl).trans ((rdat_A m c 1).trans (V_main_arg1 m c)),
      ((h c).2 main_arg2 (Pipeline.mem_restRefs_of main_arg2 (by decide) (by decide))).trans (V_main_arg2 m c)⟩) (run_main m ρ)

end Cert.KernelIdeal.Frame

end
-- ==== Proof.Payload.lean ====
/-
  What one grid point stores, read at an index, at the ideal values.

  The body multiplies its 512 x 4096 block of `x` against the 64 x 4096 array `W`, contracting the last axis of both,
  into a zero accumulator, and adds the 1 x 64 bias row broadcast over the 512 rows. Over the extended reals, entry
  `(r, q)` of the result is therefore `∑ k, xblock (r, k) * W (q, k) + bias (0, q)`: the product into zero is the plain
  sum over the contraction index, the same-shape cast of the bias row is the identity, and the broadcast reads
  the one row.
-/
import proofs.«112931_g20796231647463_cont_8to1_1044_13_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic

/-- Row `r` of the block of `x`, feature `k`. -/
abbrev xAt (i : S512x64.Idx) (k : Fin 4096) : S512x4096.Idx := fun a => match a with
  | ⟨0, _⟩ => ⟨(i 0).val, (i 0).isLt⟩
  | ⟨1, _⟩ => ⟨k.val, k.isLt⟩
/-- Row `q` of `W` (the expert), feature `k`. -/
abbrev wAt (i : S512x64.Idx) (k : Fin 4096) : S64x4096.Idx := fun a => match a with
  | ⟨0, _⟩ => ⟨(i 1).val, (i 1).isLt⟩
  | ⟨1, _⟩ => ⟨k.val, k.isLt⟩
/-- The bias row's entry for expert `q`. -/
abbrev bAt (i : S512x64.Idx) : S1x64.Idx := fun a => match a with
  | ⟨0, _⟩ => ⟨0, Nat.one_pos⟩
  | ⟨1, _⟩ => ⟨(i 1).val, (i 1).isLt⟩

/-! The product's operand indices, axis by axis: the left operand is read at (output row, contraction index), the
    right operand at (output column, contraction index). -/

theorem lhs_axis0 (i : S512x64.Idx) (q : dot_S512x4096_S64x4096_S512x64_1_1_0_0_n_n.contr.Idx) :
    (dot_S512x4096_S64x4096_S512x64_1_1_0_0_n_n.lhsIdx i q 0).val = (i 0).val := by
  unfold DotDims.lhsIdx
  rw [dif_neg (show ¬(0 : Fin S512x4096.rank) ∈ dot_S512x4096_S64x4096_S512x64_1_1_0_0_n_n.lhsBatch by decide), dif_pos (show (0 : Fin S512x4096.rank) ∈ dot_S512x4096_S64x4096_S512x64_1_1_0_0_n_n.lhsNonContracting by decide)]
  rfl
theorem lhs_axis1 (i : S512x64.Idx) (q : dot_S512x4096_S64x4096_S512x64_1_1_0_0_n_n.contr.Idx) :
    (dot_S512x4096_S64x4096_S512x64_1_1_0_0_n_n.lhsIdx i q 1).val = (q ⟨0, by decide⟩).val :=
  dot_S512x4096_S64x4096_S512x64_1_1_0_0_n_n.lhsIdx_val_of_single rfl i q
theorem rhs_axis0 (i : S512x64.Idx) (q : dot_S512x4096_S64x4096_S512x64_1_1_0_0_n_n.contr.Idx) :
    (dot_S512x4096_S64x4096_S512x64_1_1_0_0_n_n.rhsIdx i q 0).val = (i 1).val := by
  unfold DotDims.rhsIdx
  rw [dif_neg (show ¬(0 : Fin S64x4096.rank) ∈ dot_S512x4096_S64x4096_S512x64_1_1_0_0_n_n.rhsBatch by decide), dif_pos (show (0 : Fin S64x4096.rank) ∈ dot_S512x4096_S64x4096_S512x64_1_1_0_0_n_n.rhsNonContracting by decide)]
  rfl
theorem rhs_axis1 (i : S512x64.Idx) (q : dot_S512x4096_S64x4096_S512x64_1_1_0_0_n_n.contr.Idx) :
    (dot_S512x4096_S64x4096_S512x64_1_1_0_0_n_n.rhsIdx i q 1).val = (q ⟨0, by decide⟩).val :=
  dot_S512x4096_S64x4096_S512x64_1_1_0_0_n_n.rhsIdx_val_of_single rfl i q

/-- The product into the zero accumulator, at an output index: the sum over the 4096 features of the block's row
    against `W`'s row. -/
theorem matmul_zero_apply (v0 : Vec Ideal S512x4096 .f32) (v1 : Vec Ideal S64x4096 .f32) (i : S512x64.Idx) :
    matmul (F := Ideal) (φ₁ := .f32) (φ₂ := .f32) dot_S512x4096_S64x4096_S512x64_1_1_0_0_n_n none v0 v1 (constant S512x64 .f32 0x00000000#32) i
      = ∑ k : Fin 4096, v0 (xAt i k) * v1 (wAt i k) := by
  simp only [matmul]
  rw [Ideal.matmul_constant_zero_apply, ← Equiv.sum_comp (ValueIdx.contrEquiv1 dot_S512x4096_S64x4096_S512x64_1_1_0_0_n_n 4096 rfl rfl).symm]
  refine Finset.sum_congr rfl fun k _ => ?_
  have hk := ValueIdx.contrEquiv1_symm_val dot_S512x4096_S64x4096_S512x64_1_1_0_0_n_n 4096 rfl rfl k
  have el : dot_S512x4096_S64x4096_S512x64_1_1_0_0_n_n.lhsIdx i ((ValueIdx.contrEquiv1 dot_S512x4096_S64x4096_S512x64_1_1_0_0_n_n 4096 rfl rfl).symm k) = xAt i k := funext fun a => Fin.ext (by
    match a with
    | ⟨0, _⟩ => exact lhs_axis0 _ _
    | ⟨1, _⟩ => exact (lhs_axis1 _ _).trans hk)
  have er : dot_S512x4096_S64x4096_S512x64_1_1_0_0_n_n.rhsIdx i ((ValueIdx.contrEquiv1 dot_S512x4096_S64x4096_S512x64_1_1_0_0_n_n 4096 rfl rfl).symm k) = wAt i k := funext fun a => Fin.ext (by
    match a with
    | ⟨0, _⟩ => exact rhs_axis0 _ _
    | ⟨1, _⟩ => exact (rhs_axis1 _ _).trans hk)
  rw [el, er]

/-- The bias row, cast to its own shape and broadcast over the 512 rows, at an output index: its entry for the column. -/
theorem bias_apply (v3 : Vec Ideal S1x64 .f32) (i : S512x64.Idx) :
    broadcastTo S512x64 (shapeCast S1x64 v3 shapeCasts_S1x64_S1x64) broadcasts_S1x64_S512x64 i = v3 (bAt i) := by
  rw [shapeCast_self]
  exact broadcastTo_apply v3 broadcasts_S1x64_S512x64 i (bAt i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The stored value at an index: the sum over the features plus the bias entry. -/
theorem pay_apply (v0 : Vec Ideal S512x4096 .f32) (v1 : Vec Ideal S64x4096 .f32) (v3 : Vec Ideal S1x64 .f32) (i : S512x64.Idx) :
    k0_pay1 (F := Ideal) v0 v1 v3 i = (∑ k : Fin 4096, v0 (xAt i k) * v1 (wAt i k)) + v3 (bAt i) := by
  unfold k0_pay1
  refine (ValueIdx.addf_apply _ _ i).trans ?_
  rw [matmul_zero_apply, bias_apply]

end Cert.KernelIdeal.Payload

end
-- ==== Proof.Spec.lean ====
/-
  The router's logits as one function of the three argument arrays, over the extended reals:

      logits x W b (r, q) = ∑ k < 4096, x (r, k) * W (q, k) + b (q)

  for token `r < 8192` and expert `q < 64`. Both programs compute this: the reference as a transpose, one host
  `dot_general` and a broadcast add; the kernel 512 rows at a time, each block a product into a zero accumulator plus
  the broadcast bias row. No law of the extended reals beyond reading each operation at an index is needed: the two
  sums run over the same index in the same order.
-/
import Idealize.ShloMosaic.PureOps.Ideal
import Idealize.ShloMosaic.Lib.ValueIdx

noncomputable section

namespace Cert.Spec

open Idealize.ShloMosaic

/-- The shapes of `x`, `W`, `b` and of the result. -/
abbrev SX : Shape := ⟨2, ![8192, 4096]⟩
abbrev SW : Shape := ⟨2, ![64, 4096]⟩
abbrev SB : Shape := ⟨1, ![64]⟩
abbrev SO : Shape := ⟨2, ![8192, 64]⟩

/-- Token `j 0`'s feature `k`. -/
abbrev xIdx (j : SO.Idx) (k : Fin 4096) : SX.Idx := fun a => match a with
  | ⟨0, _⟩ => ⟨(j 0).val, (j 0).isLt⟩
  | ⟨1, _⟩ => ⟨k.val, k.isLt⟩
/-- Expert `j 1`'s weight for feature `k`. -/
abbrev wIdx (j : SO.Idx) (k : Fin 4096) : SW.Idx := fun a => match a with
  | ⟨0, _⟩ => ⟨(j 1).val, (j 1).isLt⟩
  | ⟨1, _⟩ => ⟨k.val, k.isLt⟩
/-- Expert `j 1`'s bias. -/
abbrev bIdx (j : SO.Idx) : SB.Idx := fun a => match a with
  | ⟨0, _⟩ => ⟨(j 1).val, (j 1).isLt⟩

/-- The logits. -/
def logits (x : FVec Ideal SX .f32) (W : FVec Ideal SW .f32) (b : FVec Ideal SB .f32) : FVec Ideal SO .f32 :=
  fun j => (∑ k : Fin 4096, x (xIdx j k) * W (wIdx j k)) + b (bIdx j)

end Cert.Spec

end
-- ==== Proof.IdealValue.lean ====
/-
  What the idealized kernel leaves in its result array: the logits of its three argument arrays.

  Point `t` of the 16 reads rows `[512 t, 512 t + 512)` of `x`, all of `W` and the bias row (the reshaped `b`), and
  stores its payload on the same band of rows of the output's one staging buffer. By the payload read at an index,
  the entry stored at row `512 t + r`, column `q` is `∑ k, x (512 t + r, k) * W (q, k) + b q`, the logit at that row
  and column. By induction over the points, whatever point `t` may find in the buffer already holds the logits on
  every row below `512 t`; after the last point every one of the 8192 rows does, and the single write-back, whose
  block is the whole array, copies the buffer to the result array.
-/
import proofs.«112931_g20796231647463_cont_8to1_1044_13_alg».proof.Proof.IdealFrame
import proofs.«112931_g20796231647463_cont_8to1_1044_13_alg».proof.Proof.Payload
import proofs.«112931_g20796231647463_cont_8to1_1044_13_alg».proof.Proof.Spec
import Idealize.ShloMosaic.Lib.StableHlo.Run

set_option maxRecDepth 16384

noncomputable section

namespace Cert.KernelIdeal.OutValue

open Cert.KernelIdeal Cert.KernelIdeal.Gen Cert.KernelIdeal.Frame Cert.KernelIdeal.Payload Cert.RowsStore Cert.Spec
open Idealize.ShloMosaic Idealize.ShloMosaic.TcCoe Idealize.SL.Sem Idealize.ShloMosaic.StableHlo
open Idealize.ShloMosaic.Pipeline (Dat RDat)

variable (m : (ℓ : Loc nD τ sig) → Buf (Elt Ideal) ℓ) (ρ : Dev nD → PrngReg)

/-- The logits of core `c`'s argument arrays as launched. -/
def out (c : Dev nD) : S8192x64.Idx → Elt Ideal .f32 :=
  logits (m ((c : Thread nD τ).loc main_arg0)) (m ((c : Thread nD τ).loc main_arg1)) (m ((c : Thread nD τ).loc main_arg2))

/-! ## The windows' blocks read at an index -/

/-- The printed index maps over the grid: `x`'s window moves one block of rows per point; the other three stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The grid has 16 points. -/
theorem N16 : cfg0.N = 16 := N_0

/-- Row `r` of `x`'s block at point `t` is row `512 t + r` of `x`. -/
theorem xblk_apply (c : Dev nD) (t : Fin cfg0.N) (y : S512x4096.Idx) (j : S8192x4096.Idx)
    (h0 : (j 0).val = 512 * t.val + (y 0).val) (h1 : (j 1).val = (y 1).val) :
    iblk m c 0 t y = m ((c : Thread nD τ).loc main_arg0) j := by
  rw [← V_main_arg0 m c]
  show V m c main_arg0 (((cfg0.win 0).blk t).view.emb y) = V m c main_arg0 j
  obtain ⟨e0, e1, -⟩ := idx_facts t
  refine congrArg _ (funext fun a => Fin.ext ?_)
  match a with
  | ⟨0, _⟩ => show win0_0.index t (0 : Fin 2) * 512 + 1 * (y 0).val = (j 0).val; omega
  | ⟨1, _⟩ => show win0_0.index t (1 : Fin 2) * 4096 + 1 * (y 1).val = (j 1).val; omega

/-- `W`'s block at every point is `W`. -/
theorem wblk_apply (c : Dev nD) (t : Fin cfg0.N) (y : S64x4096.Idx) :
    iblk m c 1 t y = m ((c : Thread nD τ).loc main_arg1) y := by
  rw [← V_main_arg1 m c]
  show V m c main_arg1 (((cfg0.win 1).blk t).view.emb y) = V m c main_arg1 y
  obtain ⟨-, -, e0, e1, -⟩ := idx_facts t
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 4096 + 1 * (y 1).val = (y 1).val; omega

/-- The bias row the region finds is `b` recast to one row: the one host operation before the region. -/
theorem bias_row (c : Dev nD) :
    (V m c main_v0 : S1x64.Idx → Elt Ideal .f32) = shapeCast S1x64 (m ((c : Thread nD τ).loc main_arg2)) shapeCasts_S64_S1x64 := by
  dsimp only [Gen.V, Gen.hostOps0]
  after_results
  rfl

/-- The bias row's block at every point, at column `q`, is `b q`. -/
theorem bblk_apply (c : Dev nD) (t : Fin cfg0.N) (y : S1x64.Idx) (k : S64.Idx) (hk : (k 0).val = (y 1).val) :
    iblk m c 2 t y = m ((c : Thread nD τ).loc main_arg2) k := by
  have hy : ((cfg0.win 2).blk t).view.emb y = y := by
    obtain ⟨-, -, -, -, e0, e1, -⟩ := idx_facts t
    refine funext fun a => Fin.ext ?_
    match a with
    | ⟨0, _⟩ => show win0_2.index t (0 : Fin 2) * 1 + 1 * (y 0).val = (y 0).val; omega
    | ⟨1, _⟩ => show win0_2.index t (1 : Fin 2) * 64 + 1 * (y 1).val = (y 1).val; omega
  show V m c main_v0 (((cfg0.win 2).blk t).view.emb y) = _
  rw [hy, bias_row]
  refine shapeCast_apply _ shapeCasts_S64_S1x64 y k ?_
  rw [Shape.rowMajor_val_one, Shape.rowMajor_val_two]
  have h0 : (y 0).val < 1 := (y 0).isLt
  show (k 0).val = (y 0).val * 64 + (y 1).val
  omega

/-! ## The payload is the logits on the point's band of rows -/

theorem pay_eq (c : Dev nD) (t : Fin cfg0.N) (x : S512x64.Idx) (j : S8192x64.Idx)
    (h0 : (j 0).val = 512 * t.val + (x 0).val) (h1 : (j 1).val = (x 1).val) :
    Frame.pay m c t x = out m c j := by
  unfold Frame.pay out logits
  refine (pay_apply (iblk m c 0 t) (iblk m c 1 t) (iblk m c 2 t) x).trans ?_
  congr 1
  · refine Finset.sum_congr rfl fun k _ => ?_
    have ex : iblk m c 0 t (xAt x k) = m ((c : Thread nD τ).loc main_arg0) (xIdx j k) := xblk_apply m c t (xAt x k) (xIdx j k) h0 rfl
    have ew : iblk m c 1 t (wAt x k) = m ((c : Thread nD τ).loc main_arg1) (wIdx j k) :=
      (wblk_apply m c t (wAt x k)).trans (congrArg _ (funext fun a => Fin.ext (by
        match a with
        | ⟨0, _⟩ => exact h1.symm
        | ⟨1, _⟩ => rfl)))
    rw [ex, ew]
  · exact bblk_apply m c t (bAt x) (bIdx j) h1

/-! ## The induction over the points -/

/-- The output's buffer is never fetched into. -/
theorem nofetch3 (t : Fin cfg0.N) : (cfg0.win 3).fetch t = false := rfl

/-- Whatever point `t` may find in the output's buffer holds the logits on every row below `512 t`: the points
    before it stored them band by band, and no point touches a row outside its own band. -/
theorem finds_rows (c : Dev nD) : ∀ (n : ℕ) (t : Fin cfg0.N), t.val = n → ∀ Y : S8192x64.Idx → Elt Ideal .f32,
    (rdat m c).Finds 3 t Y → ∀ j : S8192x64.Idx, (j 0).val < 512 * n → Y j = out m c j
  | 0, _, _, _, _, j, hj => absurd hj (by omega)
  | n + 1, t, ht, Y, hF, j, hj => by
    have htl : t.val < 16 := N16 ▸ t.isLt
    have ht' : (⟨t.val - 1, Nat.lt_of_le_of_lt (Nat.sub_le _ _) t.isLt⟩ : Fin cfg0.N).val = n := by
      show t.val - 1 = n; omega
    rcases ((rdat m c).finds_of_pos (nofetch3 t) (by omega) Y).mp hF with hfl | ⟨Y', hF', hst⟩
    · have h15 := (flush0_3 _).mp hfl
      rw [ht'] at h15
      omega
    · rw [rdat_after3] at hst
      obtain ⟨hband, hrest⟩ := hst
      rw [ht'] at hband hrest
      by_cases hb : (j 0).val < 512 * n
      · rw [hrest j (.inl hb)]
        exact finds_rows c n _ ht' Y' hF' j hb
      · have hj1 : (j 1).val < 64 := (j 1).isLt
        have hr : (j 0).val - 512 * n < 512 := by omega
        have e0 : (j 0).val = 512 * n + (j 0).val - 512 * n := by omega
        rw [hband j (ValueIdx.ix2 (⟨(j 0).val - 512 * n, hr⟩ : Fin 512) (⟨(j 1).val, hj1⟩ : Fin 64))
          (by show (j 0).val = 512 * n + ((j 0).val - 512 * n); omega) rfl]
        exact pay_eq m c _ _ j (by rw [ht']; show (j 0).val = 512 * n + ((j 0).val - 512 * n); omega) rfl

/-! ## The result array after the run -/

/-- The last point. -/
theorem last_lt : (15 : ℕ) < cfg0.N := by rw [N16]; omega

/-- No point before the last writes the output back: until then the result array is as the region found it. -/
theorem arrAt_before_last (c : Dev nD) : ∀ n, n ≤ 15 → (rdat m c).ArrAt 3 n = fun F => F = (rdat m c).A 3 := by
  intro n
  induction n with
  | zero => intro _; rfl
  | succ k ih =>
    intro hk
    have hk' : k < cfg0.N := by rw [N16]; omega
    rw [(rdat m c).ArrAt_succ 3 ⟨k, hk'⟩, if_neg, ih (by omega)]
    intro hfl
    have h15 : k % 16 = 15 := (flush0_3 ⟨k, hk'⟩).mp hfl
    omega

/-- After every write-back the result array is its entry contents with the last point's block, the whole array,
    overwritten by something the last point may have left in the buffer. -/
theorem arrAt_last (c : Dev nD) (Fm : Buf (Elt Ideal) ((cfg0.win 3).arr.view.loc (c.tc : Thread nD τ)))
    (h : (rdat m c).ArrAt 3 cfg0.N Fm) :
    ∃ G₀ X, (rdat m c).Leaves 3 ⟨15, last_lt⟩ X
      ∧ Fm = ((cfg0.win 3).blk ⟨15, last_lt⟩).view.write (Elt Ideal) G₀ ((cfg0.win 3).cut (cfg0.grid.coords ⟨15, last_lt⟩) X) Finset.univ := by
  have h' : (rdat m c).ArrAt 3 (15 + 1) Fm := (congrArg (fun n => (rdat m c).ArrAt 3 n Fm) N16).mp h
  rw [(rdat m c).ArrAt_succ 3 ⟨15, last_lt⟩, if_pos ((flush0_3 ⟨15, last_lt⟩).mpr rfl)] at h'
  obtain ⟨G₀, X, -, hL, hF⟩ := h'
  exact ⟨G₀, X, hL, hF⟩

/-- What the last point may leave in the buffer is the logits on every row. -/
theorem leaves_last (c : Dev nD) (X : S8192x64.Idx → Elt Ideal .f32) (h : (rdat m c).Leaves 3 ⟨15, last_lt⟩ X)
    (j : S8192x64.Idx) : X j = out m c j := by
  obtain ⟨Y, hFY, hst⟩ := h
  rw [rdat_after3] at hst
  obtain ⟨hband, hrest⟩ := hst
  by_cases hb : (j 0).val < 512 * 15
  · rw [hrest j (.inl hb)]
    exact finds_rows m c 15 ⟨15, last_lt⟩ rfl Y hFY j hb
  · have hj0 : (j 0).val < 8192 := (j 0).isLt
    have hj1 : (j 1).val < 64 := (j 1).isLt
    have hr : (j 0).val - 512 * 15 < 512 := by omega
    rw [hband j (ValueIdx.ix2 (⟨(j 0).val - 512 * 15, hr⟩ : Fin 512) (⟨(j 1).val, hj1⟩ : Fin 64))
      (by show (j 0).val = 512 * 15 + ((j 0).val - 512 * 15); omega) rfl]
    exact pay_eq m c ⟨15, last_lt⟩ _ j (by show (j 0).val = 512 * 15 + ((j 0).val - 512 * 15); omega) rfl

/-- The output's one block is the whole array: written back over anything, it leaves the array at what the buffer
    held, index by index. -/
theorem write_whole (c : Dev nD) (t : Fin cfg0.N) (G₀ : Buf (Elt Ideal) ((cfg0.win 3).arr.view.loc (c.tc : Thread nD τ)))
    (X : S8192x64.Idx → Elt Ideal .f32) (i : S8192x64.Idx) :
    ((cfg0.win 3).blk t).view.write (Elt Ideal) G₀ ((cfg0.win 3).cut (cfg0.grid.coords t) X) Finset.univ i = X i := by
  have hi : ((cfg0.win 3).blk t).view.emb i = i := by
    obtain ⟨-, -, -, -, -, -, e0, e1⟩ := idx_facts t
    refine funext fun a => Fin.ext ?_
    match a with
    | ⟨0, _⟩ => show win0_3.index t (0 : Fin 2) * 8192 + 1 * (i 0).val = (i 0).val; omega
    | ⟨1, _⟩ => show win0_3.index t (1 : Fin 2) * 64 + 1 * (i 1).val = (i 1).val; omega
  have e := View.write_emb_of_mem (v := ((cfg0.win 3).blk t).view) (Val := Elt Ideal) G₀
    ((cfg0.win 3).cut (cfg0.grid.coords t) X) (Finset.mem_univ i)
  rw [hi] at e
  exact e

/-- Whatever the result array may hold after every write-back is the logits. -/
theorem final (c : Dev nD) (Fm : Buf (Elt Ideal) ((cfg0.win 3).arr.view.loc (c.tc : Thread nD τ)))
    (h : (rdat m c).ArrAt 3 cfg0.N Fm) : Fm = out m c := by
  obtain ⟨G₀, X, hL, rfl⟩ := arrAt_last m c Fm h
  exact funext fun i => (write_whole c _ G₀ X i).trans (leaves_last m c X hL i)

/-! ## The run, read -/

/-- Every weakly fair execution of the idealized kernel terminates with the result array at the logits of the
    argument arrays and the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨final m c _ ((h c).1 3),
      (Pipeline.RDat.FramePost.arr_in h c 0 rfl).trans ((rdat_A m c 0).trans (V_main_arg0 m c)),
      (Pipeline.RDat.FramePost.arr_in h c 1 rfl).trans ((rdat_A m c 1).trans (V_main_arg1 m c)),
      ((h c).2 main_arg2 (Pipeline.mem_restRefs_of main_arg2 (by decide) (by decide))).trans (V_main_arg2 m c)⟩)
    (run_main m ρ)

end Cert.KernelIdeal.OutValue

end
-- ==== Proof.RefValue.lean ====
/-
  The reference program at the ideal values: its result array is the logits of its three argument arrays.

  The reference transposes `W`, contracts `x`'s feature axis against the transpose's first axis on the host,
  broadcasts `b` to one row and then over the 8192 rows, and adds. Read at `(r, q)`: the host product is the sum
  over `k` of `x (r, k)` times the transpose at `(k, q)`, which is `W (q, k)`; the two broadcasts read `b (q)`.
-/
import proofs.«112931_g20796231647463_cont_8to1_1044_13_alg».proof.Proof.Gen.ReferenceIdeal.Read
import proofs.«112931_g20796231647463_cont_8to1_1044_13_alg».proof.Proof.Spec

noncomputable section

namespace Cert.ReferenceIdeal.RefValue

open Cert.ReferenceIdeal Cert.ReferenceIdeal.Read Cert.Spec Idealize.ShloMosaic

/-- The transpose read where the host product reads it is `W` at (expert, feature). -/
theorem w_idx (i : S8192x64.Idx) (k : Fin 4096) : idx_main_v0 (ridx_main_v1 i k) = wIdx i k :=
  funext fun a => match a with
    | ⟨0, _⟩ => rfl
    | ⟨1, _⟩ => rfl

/-- The two broadcasts read the bias at the expert. -/
theorem b_idx (i : S8192x64.Idx) : idx_main_v2 (idx_main_v3 i) = bIdx i :=
  funext fun a => match a with
    | ⟨0, _⟩ => rfl

/-- The reference's result is the logits of its arguments. -/
theorem result_eq (x0 : (⟨S8192x4096, .f32⟩ : BufTy).Contents (Elt Ideal)) (x1 : (⟨S64x4096, .f32⟩ : BufTy).Contents (Elt Ideal))
    (x2 : (⟨S64, .f32⟩ : BufTy).Contents (Elt Ideal)) :
    val_main_v4 (F := Ideal) x0 x1 x2 = logits x0 x1 x2 := by
  funext i
  rw [val_main_v4_apply, val_main_v1_apply, val_main_v3_apply, val_main_v2_apply]
  simp only [val_main_v0_apply, w_idx, b_idx]
  rfl

end Cert.ReferenceIdeal.RefValue

end
-- ==== Proof.lean ====
/-
  The certificate of the router-logits kernel against its reference: `x @ Wᵀ + b` for `x : f32[8192, 4096]`,
  `W : f32[64, 4096]`, `b : f32[64]`.

  The kernel walks `x` in 16 blocks of 512 rows. At each block it multiplies the block against `W` (contracting the
  4096 features of both) into a zero accumulator, adds the bias row, and stores the 512 x 64 result on the block's
  own rows of the output, which it keeps whole in one staging buffer and writes back once, after the last block.
  The reference transposes `W`, takes one product on the host and adds the broadcast bias.

  * The three frames. For the two kernel programs the body's triple names its one store (`RowsStored`: a band of
    rows replaced, the rest untouched) and the pipeline's frame rule carries it over the 16 points, the output's
    buffer constrained point by point rather than named, since what it holds before the first point is unknown;
    the argument arrays are read and never written. The reference's frame is its run with the result dropped.
  * `preserves`: the ideal pass rewrote nothing, so there is nothing to state.
  * `algebraic`: over the extended reals both result arrays are
        (r, q) ↦ ∑ k < 4096, x (r, k) * W (q, k) + b q.
    On the kernel's side by induction over the points (after point `t` rows below `512 (t + 1)` hold it) and the
    payload read at an index; on the reference's side by reading its five host operations at an index. The two sums
    run over the same index in the same order, so no law of the extended reals is used and the precondition
    (finite inputs) is never opened.
-/
import proofs.«112931_g20796231647463_cont_8to1_1044_13_alg».proof.Defs
import proofs.«112931_g20796231647463_cont_8to1_1044_13_alg».proof.Proof.Gen.Kernel
import proofs.«112931_g20796231647463_cont_8to1_1044_13_alg».proof.Proof.Gen.KernelIdeal
import proofs.«112931_g20796231647463_cont_8to1_1044_13_alg».proof.Proof.Gen.ReferenceIdeal
import proofs.«112931_g20796231647463_cont_8to1_1044_13_alg».proof.Proof.Gen.Pre_finite_inputs
import proofs.«112931_g20796231647463_cont_8to1_1044_13_alg».proof.Proof.Gen.ReferenceIdeal.Run
import proofs.«112931_g20796231647463_cont_8to1_1044_13_alg».proof.Proof.BitsFrame
import proofs.«112931_g20796231647463_cont_8to1_1044_13_alg».proof.Proof.IdealFrame
import proofs.«112931_g20796231647463_cont_8to1_1044_13_alg».proof.Proof.IdealValue
import proofs.«112931_g20796231647463_cont_8to1_1044_13_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Frame.frame m ρ

/-- So does the idealized kernel. -/
theorem frame_kernelIdeal : Cert.frame_KernelIdeal := fun m ρ _ => Cert.KernelIdeal.Frame.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the logits of those arguments. -/
theorem algebraic : Cert.algebraic_KernelIdeal_ReferenceIdeal := by
  intro m ρ m' ρ' _ hagree
  refine ⟨fun c => Cert.KernelIdeal.OutValue.out m c, Cert.KernelIdeal.OutValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
